-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S16x128 : Shape := ⟨2, ![16, 128]⟩
abbrev S16x32x128 : Shape := ⟨3, ![16, 32, 128]⟩
abbrev S16x32 : Shape := ⟨2, ![16, 32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S16x32x128 : S_.BroadcastsInDim S16x32x128 (![] : Fin 0 → Fin S16x32x128.rank)
  reducesTo_S16x32x128_S_d0_1_2 : S16x32x128.ReducesTo [0, 1, 2] S_
  bcast_S_S16x32 : S_.BroadcastsInDim S16x32 (![] : Fin 0 → Fin S16x32.rank)
  reducesTo_S16x32_S_d0_1 : S16x32.ReducesTo [0, 1] S_

variable [Facts]

def fn_part1 {F : FTy → Type} [FloatOps F] (main_arg4 : FVec F S16x32 .f32) (main_v13 : IVec S_ 1) (main_v16 : IVec S16x32x128 1) : IVec S_ 1 :=
  let main_c_5 : IVec S_ 1 := constantI S_ 1 1#1
  let main_v17 : IVec S_ 1 := (fun x v => Host.reduce IntOp.andi x v reducesTo_S16x32x128_S_d0_1_2 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  main_v23

def fn {F : FTy → Type} [FloatOps F] (main_arg0 : FVec F S50000x128 .f32) (main_arg1 : FVec F S16x128 .f32) (main_arg2 : FVec F S16x128 .f32) (main_arg3 : FVec F S16x32x128 .f32) (main_arg4 : FVec F S16x32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16x32x128 .f32 := Host.absf main_arg3
  let main_cst_4 : FVec F S_ .f32 := constant S_ .f32 0x7F800000#32
  let main_v15 : FVec F S16x32x128 .f32 := broadcastInDim S16x32x128 ![] bcast_S_S16x32x128 main_cst_4
  let main_v16 : IVec S16x32x128 1 := cmpf .olt main_v14 main_v15
  fn_part1 (F := F) main_arg4 main_v13 main_v16
-- ==== Kernel.lean ====
abbrev S50000x128 : Shape := ⟨2, ![50000, 128]⟩
abbrev S16x128 : Shape := ⟨2, ![16, 128]⟩
abbrev S16x32x128 : Shape := ⟨3, ![16, 32, 128]⟩
abbrev S16x32 : Shape := ⟨2, ![16, 32]⟩
abbrev S128x16x32 : Shape := ⟨3, ![128, 16, 32]⟩
abbrev S128x512 : Shape := ⟨2, ![128, 512]⟩
abbrev S1x512 : Shape := ⟨2, ![1, 512]⟩
abbrev S50000x32 : Shape := ⟨2, ![50000, 32]⟩
abbrev S2000x128 : Shape := ⟨2, ![2000, 128]⟩
abbrev S2000x32 : Shape := ⟨2, ![2000, 32]⟩
abbrev S1x128 : Shape := ⟨2, ![1, 128]⟩
abbrev S2000 : Shape := ⟨1, ![2000]⟩
abbrev S2000x1 : Shape := ⟨2, ![2000, 1]⟩
abbrev S2000x16 : Shape := ⟨2, ![2000, 16]⟩
abbrev S2000x512 : Shape := ⟨2, ![2000, 512]⟩

abbrev nBuf : Space → Nat
  | .hbm => 9
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S16x128, .f32⟩
  | .hbm, ⟨2, _⟩ => ⟨S16x128, .f32⟩
  | .hbm, ⟨3, _⟩ => ⟨S16x32x128, .f32⟩
  | .hbm, ⟨4, _⟩ => ⟨S16x32, .f32⟩
  | .hbm, ⟨5, _⟩ => ⟨S128x16x32, .f32⟩
  | .hbm, ⟨6, _⟩ => ⟨S128x512, .f32⟩
  | .hbm, ⟨7, _⟩ => ⟨S1x512, .f32⟩
  | .hbm, ⟨8, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S16x128, .f32⟩
  | .local _ .vmem, ⟨3, _⟩ => ⟨S16x128, .f32⟩
  | .local _ .vmem, ⟨4, _⟩ => ⟨S128x512, .f32⟩
  | .local _ .vmem, ⟨5, _⟩ => ⟨S1x512, .f32⟩
  | .local _ .vmem, ⟨6, _⟩ => ⟨S2000x32, .f32⟩
  | .local _ .vmem, ⟨7, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16x32x128_S128x16x32_2_0_1 : S16x32x128.Transposes [2, 0, 1] S128x16x32
  shapeCasts_S128x16x32_S128x512 : S128x16x32.ShapeCasts S128x512
  shapeCasts_S16x32_S1x512 : S16x32.ShapeCasts S1x512
  inb_S2000x128_S2000x128_0_0 : ∀ a, (![0, 0] : Fin 2 → Nat) a + S2000x128.size a ≤ S2000x128.size a
  h_S2000x128 : 0 < S2000x128.numel
  inb_S16x128_S16x128_0_0 : ∀ a, (![0, 0] : Fin 2 → Nat) a + S16x128.size a ≤ S16x128.size a
  h_S16x128 : 0 < S16x128.numel
  slices_S16x128_o0_0_S1x128 : S16x128.Slices ![0, 0] S1x128
  broadcasts_S1x128_S2000x128 : S1x128.Broadcasts S2000x128
  reduces_S2000x128_S2000 : S2000x128.Reduces [1] S2000
  shapeCasts_S2000_S2000x1 : S2000.ShapeCasts S2000x1
  slices_S16x128_o1_0_S1x128 : S16x128.Slices ![1, 0] S1x128
  slices_S16x128_o2_0_S1x128 : S16x128.Slices ![2, 0] S1x128
  slices_S16x128_o3_0_S1x128 : S16x128.Slices ![3, 0] S1x128
  slices_S16x128_o4_0_S1x128 : S16x128.Slices ![4, 0] S1x128
  slices_S16x128_o5_0_S1x128 : S16x128.Slices ![5, 0] S1x128
  slices_S16x128_o6_0_S1x128 : S16x128.Slices ![6, 0] S1x128
  slices_S16x128_o7_0_S1x128 : S16x128.Slices ![7, 0] S1x128
  slices_S16x128_o8_0_S1x128 : S16x128.Slices ![8, 0] S1x128
  slices_S16x128_o9_0_S1x128 : S16x128.Slices ![9, 0] S1x128
  slices_S16x128_o10_0_S1x128 : S16x128.Slices ![10, 0] S1x128
  slices_S16x128_o11_0_S1x128 : S16x128.Slices ![11, 0] S1x128
  slices_S16x128_o12_0_S1x128 : S16x128.Slices ![12, 0] S1x128
  slices_S16x128_o13_0_S1x128 : S16x128.Slices ![13, 0] S1x128
  slices_S16x128_o14_0_S1x128 : S16x128.Slices ![14, 0] S1x128
  slices_S16x128_o15_0_S1x128 : S16x128.Slices ![15, 0] S1x128
  concatenates_S2000x1_S2000x1_S2000x1_S2000x1_S2000x1_S2000x1_S2000x1_S2000x1_S2000x1_S2000x1_S2000x1_S2000x1_S2000x1_S2000x1_S2000x1_S2000x1_S2000x16_d1 : Shape.Concatenates [S2000x1, S2000x1, S2000x1, S2000x1, S2000x1, S2000x1, S2000x1, S2000x1, S2000x1, S2000x1, S2000x1, S2000x1, S2000x1, S2000x1, S2000x1, S2000x1] S2000x16 1
  reduces_S2000x16_S2000 : S2000x16.Reduces [1] S2000
  broadcasts_S2000x1_S2000x16 : S2000x1.Broadcasts S2000x16
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x32 : S2000x512.Slices ![0, 0] S2000x32
  slices_S2000x16_o0_0_S2000x1 : S2000x16.Slices ![0, 0] S2000x1
  broadcasts_S2000x1_S2000x32 : S2000x1.Broadcasts S2000x32
  slices_S2000x512_o0_32_S2000x32 : S2000x512.Slices ![0, 32] S2000x32
  slices_S2000x16_o0_1_S2000x1 : S2000x16.Slices ![0, 1] S2000x1
  slices_S2000x512_o0_64_S2000x32 : S2000x512.Slices ![0, 64] S2000x32
  slices_S2000x16_o0_2_S2000x1 : S2000x16.Slices ![0, 2] S2000x1
  slices_S2000x512_o0_96_S2000x32 : S2000x512.Slices ![0, 96] S2000x32
  slices_S2000x16_o0_3_S2000x1 : S2000x16.Slices ![0, 3] S2000x1
  slices_S2000x512_o0_128_S2000x32 : S2000x512.Slices ![0, 128] S2000x32
  slices_S2000x16_o0_4_S2000x1 : S2000x16.Slices ![0, 4] S2000x1
  slices_S2000x512_o0_160_S2000x32 : S2000x512.Slices ![0, 160] S2000x32
  slices_S2000x16_o0_5_S2000x1 : S2000x16.Slices ![0, 5] S2000x1
  slices_S2000x512_o0_192_S2000x32 : S2000x512.Slices ![0, 192] S2000x32
  slices_S2000x16_o0_6_S2000x1 : S2000x16.Slices ![0, 6] S2000x1
  slices_S2000x512_o0_224_S2000x32 : S2000x512.Slices ![0, 224] S2000x32
  slices_S2000x16_o0_7_S2000x1 : S2000x16.Slices ![0, 7] S2000x1
  slices_S2000x512_o0_256_S2000x32 : S2000x512.Slices ![0, 256] S2000x32
  slices_S2000x16_o0_8_S2000x1 : S2000x16.Slices ![0, 8] S2000x1
  slices_S2000x512_o0_288_S2000x32 : S2000x512.Slices ![0, 288] S2000x32
  slices_S2000x16_o0_9_S2000x1 : S2000x16.Slices ![0, 9] S2000x1
  slices_S2000x512_o0_320_S2000x32 : S2000x512.Slices ![0, 320] S2000x32
  slices_S2000x16_o0_10_S2000x1 : S2000x16.Slices ![0, 10] S2000x1
  slices_S2000x512_o0_352_S2000x32 : S2000x512.Slices ![0, 352] S2000x32
  slices_S2000x16_o0_11_S2000x1 : S2000x16.Slices ![0, 11] S2000x1
  slices_S2000x512_o0_384_S2000x32 : S2000x512.Slices ![0, 384] S2000x32
  slices_S2000x16_o0_12_S2000x1 : S2000x16.Slices ![0, 12] S2000x1
  slices_S2000x512_o0_416_S2000x32 : S2000x512.Slices ![0, 416] S2000x32
  slices_S2000x16_o0_13_S2000x1 : S2000x16.Slices ![0, 13] S2000x1
  slices_S2000x512_o0_448_S2000x32 : S2000x512.Slices ![0, 448] S2000x32
  slices_S2000x16_o0_14_S2000x1 : S2000x16.Slices ![0, 14] S2000x1
  slices_S2000x512_o0_480_S2000x32 : S2000x512.Slices ![0, 480] S2000x32
  slices_S2000x16_o0_15_S2000x1 : S2000x16.Slices ![0, 15] S2000x1
  inb_S2000x32_S2000x32_0_0 : ∀ a, (![0, 0] : Fin 2 → Nat) a + S2000x32.size a ≤ S2000x32.size a
  h_S2000x32 : 0 < S2000x32.numel
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S50000x32.size a
  hwx0_5 : ∀ i : grid0.Coords, EltTy.bits .f32 = 32 ∨ (Rect.block (s := S50000x32) S2000x32.size (cc0_transform_5 i) (hinb0_5 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S16x128 : Shape := ⟨2, ![16, 128]⟩
abbrev S16x32x128 : Shape := ⟨3, ![16, 32, 128]⟩
abbrev S16x32 : Shape := ⟨2, ![16, 32]⟩
abbrev S_ : Shape := ⟨0, ![]⟩
abbrev S50000x1x128 : Shape := ⟨3, ![50000, 1, 128]⟩
abbrev S1x16x128 : Shape := ⟨3, ![1, 16, 128]⟩
abbrev S50000x16x128 : Shape := ⟨3, ![50000, 16, 128]⟩
abbrev S50000x16 : Shape := ⟨2, ![50000, 16]⟩
abbrev S50000 : Shape := ⟨1, ![50000]⟩
abbrev S50000x1 : Shape := ⟨2, ![50000, 1]⟩
abbrev S50000x16x32 : Shape := ⟨3, ![50000, 16, 32]⟩
abbrev S1x16x32 : Shape := ⟨3, ![1, 16, 32]⟩
abbrev S50000x16x1 : Shape := ⟨3, ![50000, 16, 1]⟩
abbrev S50000x32 : Shape := ⟨2, ![50000, 32]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S16x128, .f32⟩
  | .hbm, ⟨2, _⟩ => ⟨S16x128, .f32⟩
  | .hbm, ⟨3, _⟩ => ⟨S16x32x128, .f32⟩
  | .hbm, ⟨4, _⟩ => ⟨S16x32, .f32⟩
  | .hbm, ⟨5, _⟩ => ⟨S50000x128, .f32⟩
  | .hbm, ⟨6, _⟩ => ⟨S50000x128, .f32⟩
  | .hbm, ⟨7, _⟩ => ⟨S_, .f32⟩
  | .hbm, ⟨8, _⟩ => ⟨S50000x128, .f32⟩
  | .hbm, ⟨9, _⟩ => ⟨S50000x128, .f32⟩
  | .hbm, ⟨10, _⟩ => ⟨S_, .f32⟩
  | .hbm, ⟨11, _⟩ => ⟨S50000x128, .f32⟩
  | .hbm, ⟨12, _⟩ => ⟨S50000x128, .f32⟩
  | .hbm, ⟨13, _⟩ => ⟨S50000x1x128, .f32⟩
  | .hbm, ⟨14, _⟩ => ⟨S1x16x128, .f32⟩
  | .hbm, ⟨15, _⟩ => ⟨S50000x16x128, .f32⟩
  | .hbm, ⟨16, _⟩ => ⟨S50000x16x128, .f32⟩
  | .hbm, ⟨17, _⟩ => ⟨S50000x16x128, .f32⟩
  | .hbm, ⟨18, _⟩ => ⟨S50000x16x128, .f32⟩
  | .hbm, ⟨19, _⟩ => ⟨S1x16x128, .f32⟩
  | .hbm, ⟨20, _⟩ => ⟨S50000x16x128, .f32⟩
  | .hbm, ⟨21, _⟩ => ⟨S50000x16x128, .f32⟩
  | .hbm, ⟨22, _⟩ => ⟨S50000x16x128, .f32⟩
  | .hbm, ⟨23, _⟩ => ⟨S_, .f32⟩
  | .hbm, ⟨24, _⟩ => ⟨S50000x16x128, .f32⟩
  | .hbm, ⟨25, _⟩ => ⟨S50000x16x128, .f32⟩
  | .hbm, ⟨26, _⟩ => ⟨S_, .f32⟩
  | .hbm, ⟨27, _⟩ => ⟨S50000x16, .f32⟩
  | .hbm, ⟨28, _⟩ => ⟨S_, .f32⟩
  | .hbm, ⟨29, _⟩ => ⟨S50000x16, .f32⟩
  | .hbm, ⟨30, _⟩ => ⟨S50000x16, .f32⟩
  | .hbm, ⟨31, _⟩ => ⟨S_, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x16, .f32⟩
  | .hbm, ⟨38, _⟩ => ⟨S50000x16, .f32⟩
  | .hbm, ⟨39, _⟩ => ⟨S50000x16, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S50000x16, .f32⟩
  | .hbm, ⟨44, _⟩ => ⟨S50000x16, .f32⟩
  | .hbm, ⟨45, _⟩ => ⟨S50000x16x32, .f32⟩
  | .hbm, ⟨46, _⟩ => ⟨S1x16x32, .f32⟩
  | .hbm, ⟨47, _⟩ => ⟨S50000x16x32, .f32⟩
  | .hbm, ⟨48, _⟩ => ⟨S50000x16x32, .f32⟩
  | .hbm, ⟨49, _⟩ => ⟨S50000x16x32, .f32⟩
  | .hbm, ⟨50, _⟩ => ⟨S50000x16x32, .f32⟩
  | .hbm, ⟨51, _⟩ => ⟨S_, .f32⟩
  | .hbm, ⟨52, _⟩ => ⟨S50000x16x32, .f32⟩
  | .hbm, ⟨53, _⟩ => ⟨S50000x16x32, .f32⟩
  | .hbm, ⟨54, _⟩ => ⟨S_, .f32⟩
  | .hbm, ⟨55, _⟩ => ⟨S50000x16x32, .f32⟩
  | .hbm, ⟨56, _⟩ => ⟨S50000x16x32, .f32⟩
  | .hbm, ⟨57, _⟩ => ⟨S50000x16x1, .f32⟩
  | .hbm, ⟨58, _⟩ => ⟨S50000x16x32, .f32⟩
  | .hbm, ⟨59, _⟩ => ⟨S50000x16x32, .f32⟩
  | .hbm, ⟨60, _⟩ => ⟨S_, .f32⟩
  | .hbm, ⟨61, _⟩ => ⟨S50000x32, .f32⟩
  | .hbm, ⟨62, _⟩ => ⟨S50000x32, .f32⟩
  | .hbm, ⟨63, _⟩ => ⟨S50000x32, .f32⟩
  | .hbm, ⟨64, _⟩ => ⟨S_, .f32⟩
  | .hbm, ⟨65, _⟩ => ⟨S50000x32, .f32⟩
  | .hbm, ⟨66, _⟩ => ⟨S50000x32, .f32⟩
  | .hbm, ⟨67, _⟩ => ⟨S_, .f32⟩
  | .hbm, ⟨68, _⟩ => ⟨S50000x32, .f32⟩
  | .hbm, ⟨69, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S50000x128_S50000x1x128_0_2 : S50000x128.BroadcastsInDim S50000x1x128 (![0, 2] : Fin 2 → Fin S50000x1x128.rank)
  bcast_S16x128_S1x16x128_1_2 : S16x128.BroadcastsInDim S1x16x128 (![1, 2] : Fin 2 → Fin S1x16x128.rank)
  bcast_S50000x1x128_S50000x16x128_0_1_2 : S50000x1x128.BroadcastsInDim S50000x16x128 (![0, 1, 2] : Fin 3 → Fin S50000x16x128.rank)
  bcast_S1x16x128_S50000x16x128_0_1_2 : S1x16x128.BroadcastsInDim S50000x16x128 (![0, 1, 2] : Fin 3 → Fin S50000x16x128.rank)
  bcast_S_S50000x16x128 : S_.BroadcastsInDim S50000x16x128 (![] : Fin 0 → Fin S50000x16x128.rank)
  reducesTo_S50000x16x128_S50000x16_d2 : S50000x16x128.ReducesTo [2] S50000x16
  h_S_ : 0 < S_.numel
  bcast_S_S50000x16 : S_.BroadcastsInDim S50000x16 (![] : Fin 0 → Fin S50000x16.rank)
  reducesTo_S50000x16_S50000_d1 : S50000x16.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S16x32_S1x16x32_1_2 : S16x32.BroadcastsInDim S1x16x32 (![1, 2] : Fin 2 → Fin S1x16x32.rank)
  bcast_S1x16x32_S50000x16x32_0_1_2 : S1x16x32.BroadcastsInDim S50000x16x32 (![0, 1, 2] : Fin 3 → Fin S50000x16x32.rank)
  bcast_S_S50000x16x32 : S_.BroadcastsInDim S50000x16x32 (![] : Fin 0 → Fin S50000x16x32.rank)
  bcast_S50000x16_S50000x16x1_0_1 : S50000x16.BroadcastsInDim S50000x16x1 (![0, 1] : Fin 2 → Fin S50000x16x1.rank)
  bcast_S50000x16x1_S50000x16x32_0_1_2 : S50000x16x1.BroadcastsInDim S50000x16x32 (![0, 1, 2] : Fin 3 → Fin S50000x16x32.rank)
  reducesTo_S50000x16x32_S50000x32_d1 : S50000x16x32.ReducesTo [1] S50000x32
  bcast_S_S50000x32 : S_.BroadcastsInDim S50000x32 (![] : Fin 0 → Fin S50000x32.rank)
  dot_S50000x128_S16x32x128_S50000x16x32_1_2_0_01_n_n_wf : DotDims.WF S50000x128 S16x32x128 S50000x16x32 [1] [2] [0] [0, 1] [] []

variable [Facts₀]

def dot_S50000x128_S16x32x128_S50000x16x32_1_2_0_01_n_n : DotDims S50000x128 S16x32x128 S50000x16x32 where
  lhsContracting := [1]
  rhsContracting := [2]
  lhsNonContracting := [0]
  rhsNonContracting := [0, 1]
  lhsBatch := []
  rhsBatch := []
  wf := dot_S50000x128_S16x32x128_S50000x16x32_1_2_0_01_n_n_wf

class Facts : Prop extends Facts₀ where

variable [Facts]
-- ==== Proof.Spec.lean ====
/-
  What both programs compute, written once over rows of extended reals.

  A row x ∈ EReal^128 is squashed coordinate by coordinate by the logistic function s = 1/(1+e^(-x)).
  Rule r (of 16) has a centre c_r and a width w_r in EReal^128; its firing strength on the row is the
  mean over the 128 coordinates of the log-memberships  -1/2 · ((s_d - c_{r,d}) / w_{r,d})².
  The sixteen strengths are turned into weights by a softmax: subtract their maximum, exponentiate,
  divide by the sum.  Rule r's consequent for output o is logistic(⟨x, W_{r,o}⟩ + b_{r,o}); the
  result is the logistic of the weighted sum of the sixteen consequents.

  All of it is over the extended reals with the conventions of the ideal reading (division by zero
  gives an infinity by the sign of the numerator, 0/0 is ⊥); nothing below needs a finite input.
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

/-- The three f32 words both programs share: -1/2, 128 and -∞. -/
abbrev negHalf : EReal := Ideal.ofBits .f32 0xBF000000#32
abbrev n128 : EReal := Ideal.ofBits .f32 0x43000000#32
abbrev negInf : EReal := Ideal.ofBits .f32 0xFF800000#32

/-- One coordinate's log-membership: -1/2 · ((s - c)/w)². -/
def member (s c w : EReal) : EReal := negHalf * (Ideal.div (s - c) w * Ideal.div (s - c) w)

/-- A rule's firing strength on a row: the mean of the 128 log-memberships of the squashed row. -/
def fire (x c w : Fin 128 → EReal) : EReal :=
  Ideal.div (∑ d, member (Ideal.logistic (x d)) (c d) (w d)) n128

/-- The maximum of sixteen strengths (taken from -∞, and once more against -∞). -/
def peak (f : Fin 16 → EReal) : EReal := max negInf ((Finset.univ : Finset (Fin 16)).fold max negInf f)

/-- The softmax weight of rule r. -/
def weight (f : Fin 16 → EReal) (r : Fin 16) : EReal :=
  Ideal.div (Ideal.exp (f r - peak f)) (∑ q, Ideal.exp (f q - peak f))

/-- A rule's consequent for one output: logistic of the affine form ⟨x, w⟩ + b. -/
def conseq (x w : Fin 128 → EReal) (b : EReal) : EReal := Ideal.logistic ((∑ d, x d * w d) + b)

/-- One output of one row. -/
def out (x : Fin 128 → EReal) (c w : Fin 16 → Fin 128 → EReal) (W : Fin 16 → Fin 32 → Fin 128 → EReal)
    (b : Fin 16 → Fin 32 → EReal) (o : Fin 32) : EReal :=
  Ideal.logistic (∑ r, conseq x (W r o) (b r o) * weight (fun q => fire x (c q) (w q)) r)

/-- Column 32·r + o of the 512 columns in which the sixteen rules' 32 outputs lie side by side. -/
def col (r : Fin 16) (o : Fin 32) : Fin 512 := ⟨32 * r.val + o.val, by have := r.isLt; have := o.isLt; omega⟩

/-- The whole result array as ONE function of the five argument arrays: entry (b, o) is `out` of row b
    of the batch, the rules' centres and widths, the consequents' matrices W[r, o, ·] and biases b[r, o]. -/
def G (X : (⟨2, ![50000, 128]⟩ : Shape).Idx → EReal) (C Wd : (⟨2, ![16, 128]⟩ : Shape).Idx → EReal)
    (W : (⟨3, ![16, 32, 128]⟩ : Shape).Idx → EReal) (B : (⟨2, ![16, 32]⟩ : Shape).Idx → EReal) :
    (⟨2, ![50000, 32]⟩ : Shape).Idx → EReal := fun j =>
  out (fun d => X (ix2 (j 0) d)) (fun r d => C (ix2 r d)) (fun r d => Wd (ix2 r d))
    (fun r o d => W (ix3 r o d)) (fun r o => B (ix2 r o)) (j 1)

/-! ## Two laws -/

/-- The square of a quotient does not see the sign of the numerator: with |d| = max d (-d),
    (|d|/w)² = (d/w)² on every pair of extended reals.  Off w = 0 the quotient is d·w⁻¹ and the sign
    leaves the product twice; at w = 0 both quotients are infinities, whose squares are ⊤. -/
theorem sq_div_abs (d w : EReal) :
    Ideal.div (max d (-d)) w * Ideal.div (max d (-d)) w = Ideal.div d w * Ideal.div d w := by
  by_cases hw : w = 0
  · have h : ∀ a : EReal, Ideal.div a w * Ideal.div a w = ⊤ := by
      intro a
      unfold Ideal.div
      rw [if_pos hw]
      split_ifs
      · exact EReal.top_mul_top
      · exact EReal.bot_mul_bot
    rw [h, h]
  · unfold Ideal.div
    rw [if_neg hw, if_neg hw]
    rcases max_choice d (-d) with h | h
    · rw [h]
    · rw [h, neg_mul, neg_mul, mul_neg, neg_neg]

/-- Sixteen terms added one after the other onto zero are their sum. -/
theorem sum_sixteen (t : Fin 16 → EReal) :
    0 + t 0 + t 1 + t 2 + t 3 + t 4 + t 5 + t 6 + t 7 + t 8 + t 9 + t 10 + t 11 + t 12 + t 13 + t 14 + t 15
      = ∑ r, t r := by
  simp only [Fin.sum_univ_castSucc, Fin.sum_univ_zero]
  rfl

end Cert.Spec

end
-- ==== Proof.KernelOps.lean ====
/-
  The kernel's vector operations read at one entry, over plain shapes.

  A strip of the body computes, for one rule, the column of firing strengths of the 2000 rows of a
  block; the softmax turns the sixteen columns, laid side by side, into weights; one matrix product
  gives all 512 affine forms of a row, and sixteen multiply-adds combine them.  Each lemma below
  reads one of these stretches at an entry and finds the corresponding piece of `Cert.Spec`.
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value
import proofs.«111902_j33474975105109_1_alg».proof.Proof.Spec

noncomputable section

namespace Cert.KernelOps

open Idealize.ShloMosaic Idealize.ShloMosaic.ValueIdx

abbrev T2000x128 : Shape := ⟨2, ![2000, 128]⟩
abbrev T16x128 : Shape := ⟨2, ![16, 128]⟩
abbrev T1x128 : Shape := ⟨2, ![1, 128]⟩
abbrev T2000 : Shape := ⟨1, ![2000]⟩
abbrev T2000x1 : Shape := ⟨2, ![2000, 1]⟩
abbrev T2000x16 : Shape := ⟨2, ![2000, 16]⟩
abbrev T2000x512 : Shape := ⟨2, ![2000, 512]⟩
abbrev T2000x32 : Shape := ⟨2, ![2000, 32]⟩
abbrev T128x512 : Shape := ⟨2, ![128, 512]⟩
abbrev T1x512 : Shape := ⟨2, ![1, 512]⟩

/-- A column vector made from a vector of 2000 entries reads entry p at (p, 0). -/
theorem col_of_vec (v : T2000.Idx → EReal) (h : T2000.ShapeCasts T2000x1) (p : Fin 2000) :
    shapeCast T2000x1 v h (ix2 p 0) = v (ix1 p) :=
  shapeCast_apply v h (ix2 p 0) (ix1 p) (by
    rw [Shape.rowMajor_val_one, Shape.rowMajor_val_two]; show p.val = p.val * 1 + 0; omega)

/-- Row r of a 16-row table, cut out and repeated down 2000 rows, reads the table's (r, d) at (p, d). -/
theorem row_bcast (o : Nat) (v : T16x128.Idx → EReal) (hs : T16x128.Slices ![o, 0] T1x128)
    (hb : T1x128.Broadcasts T2000x128) (p : Fin 2000) (d : Fin 128) (r : Fin 16) (hr : r.val = o) :
    broadcastTo T2000x128 (extractStridedSlice T1x128 ![o, 0] v hs) hb (ix2 p d) = v (ix2 r d) := by
  refine (broadcastTo_apply _ hb (ix2 p d) (ix2 0 d) (fun a => by
    match a with
    | ⟨0, _⟩ => rfl
    | ⟨1, _⟩ => rfl)).trans ?_
  exact slice2_axis0_apply o v hs 0 d r (by simpa using hr)

/-- One rule's strip of the body: the squashed block less the rule's centre row, over its width row,
    squared, times -1/2, summed along the row and divided by 128 — at (p, 0) it is the mean
    log-membership of row p for that rule. -/
theorem strip_apply (o : Nat) (v1 : FVec Ideal T2000x128 .f32) (v2 v3 : FVec Ideal T16x128 .f32)
    (hs : T16x128.Slices ![o, 0] T1x128) (hb : T1x128.Broadcasts T2000x128)
    (hred : T2000x128.Reduces [1] T2000) (hsc : T2000.ShapeCasts T2000x1)
    (hφ : FKind.Formats .f32) (hacc : (0x00000000#32 : BitVec 32) = FKind.add.neutral .f32 hφ)
    (p : Fin 2000) (r : Fin 16) (hr : r.val = o) :
    divf (shapeCast T2000x1 (multiReduction .add [1] T2000
        (mulf (broadcast T2000x128 (Scalar.ofBits (F := Ideal) .f32 0xBF000000#32))
          (mulf (divf (subf v1 (broadcastTo T2000x128 (extractStridedSlice T1x128 ![o, 0] v2 hs) hb))
                      (broadcastTo T2000x128 (extractStridedSlice T1x128 ![o, 0] v3 hs) hb))
                (divf (subf v1 (broadcastTo T2000x128 (extractStridedSlice T1x128 ![o, 0] v2 hs) hb))
                      (broadcastTo T2000x128 (extractStridedSlice T1x128 ![o, 0] v3 hs) hb))))
        0x00000000#32 hred hφ hacc) hsc) (broadcast T2000x1 (Scalar.ofBits (F := Ideal) .f32 0x43000000#32)) (ix2 p 0)
      = Ideal.div (∑ d, Spec.member (v1 (ix2 p d)) (v2 (ix2 r d)) (v3 (ix2 r d))) Spec.n128 := by
  show Ideal.div (shapeCast T2000x1 _ hsc (ix2 p 0)) (Ideal.ofBits .f32 0x43000000#32) = _
  rw [col_of_vec, Ideal.multiReduction_add_single]
  refine congrArg (fun s => Ideal.div s Spec.n128) (Finset.sum_congr rfl fun d _ => ?_)
  have hl : hred.lift (ix1 p) d = ix2 p d := by
    funext a
    match a with
    | ⟨0, _⟩ => rfl
    | ⟨1, _⟩ => rfl
  rw [hl]
  show Ideal.ofBits .f32 0xBF000000#32
      * (Ideal.div (v1 (ix2 p d) - broadcastTo T2000x128 (extractStridedSlice T1x128 ![o, 0] v2 hs) hb (ix2 p d))
            (broadcastTo T2000x128 (extractStridedSlice T1x128 ![o, 0] v3 hs) hb (ix2 p d))
        * Ideal.div (v1 (ix2 p d) - broadcastTo T2000x128 (extractStridedSlice T1x128 ![o, 0] v2 hs) hb (ix2 p d))
            (broadcastTo T2000x128 (extractStridedSlice T1x128 ![o, 0] v3 hs) hb (ix2 p d))) = _
  rw [row_bcast o v2 hs hb p d r hr, row_bcast o v3 hs hb p d r hr]
  rfl

/-- One term of the combine: the 32 columns of rule r's consequents, times rule r's weight column
    repeated along the 32 outputs. -/
theorem term_apply (oc orr : Nat) (cq : FVec Ideal T2000x512 .f32) (fw : FVec Ideal T2000x16 .f32)
    (hc : T2000x512.Slices ![0, oc] T2000x32) (hw : T2000x16.Slices ![0, orr] T2000x1)
    (hb : T2000x1.Broadcasts T2000x32) (p : Fin 2000) (o : Fin 32) (r : Fin 16) (hr : r.val = orr) (hoc : oc = 32 * orr) :
    mulf (extractStridedSlice T2000x32 ![0, oc] cq hc)
        (broadcastTo T2000x32 (extractStridedSlice T2000x1 ![0, orr] fw hw) hb) (ix2 p o)
      = cq (ix2 p (Spec.col r o)) * fw (ix2 p r) := by
  show extractStridedSlice T2000x32 ![0, oc] cq hc (ix2 p o)
      * broadcastTo T2000x32 (extractStridedSlice T2000x1 ![0, orr] fw hw) hb (ix2 p o) = _
  rw [slice2_axis1_apply oc cq hc p o (Spec.col r o) (by show 32 * r.val + o.val = oc + o.val; omega)]
  congr 1
  refine (broadcastTo_apply _ hb (ix2 p o) (ix2 p 0) (fun a => by
    match a with
    | ⟨0, _⟩ => rfl
    | ⟨1, _⟩ => rfl)).trans ?_
  exact slice2_axis1_apply orr fw hw p 0 r (by simpa using hr)

theorem exp_apply {s : Shape} (v : FVec Ideal s .f32) (i : s.Idx) : exp v i = Ideal.exp (v i) := rfl

theorem logistic_apply {s : Shape} (v : FVec Ideal s .f32) (i : s.Idx) : logistic v i = Ideal.logistic (v i) := rfl

/-- The index a reduction along the columns of a 2000×16 block sums or folds over: (p, q). -/
theorem lift16 (hred : T2000x16.Reduces [1] T2000) (p : Fin 2000) (q : Fin 16) : hred.lift (ix1 p) q = ix2 p q := by
  funext a
  match a with
  | ⟨0, _⟩ => rfl
  | ⟨1, _⟩ => rfl

/-- A column of 2000 entries repeated along 16 columns reads entry (p, 0) at (p, r). -/
theorem col_bcast16 (v : FVec Ideal T2000x1 .f32) (hb : T2000x1.Broadcasts T2000x16) (p : Fin 2000) (r : Fin 16) :
    broadcastTo T2000x16 v hb (ix2 p r) = v (ix2 p 0) :=
  broadcastTo_apply v hb (ix2 p r) (ix2 p 0) (fun a => by
    match a with
    | ⟨0, _⟩ => rfl
    | ⟨1, _⟩ => rfl)

/-- The row maximum of a 2000×16 block (folded from -∞, then once more against -∞), as a column
    repeated along the 16 columns: at (p, r) it is the peak of row p. -/
theorem rowmax_apply (c : FVec Ideal T2000x16 .f32) (hred : T2000x16.Reduces [1] T2000) (hsc : T2000.ShapeCasts T2000x1)
    (hb : T2000x1.Broadcasts T2000x16) (hφ : FKind.Formats .f32)
    (hmax : (0xFF800000#32 : BitVec 32) = FKind.maximumf.neutral .f32 hφ) (p : Fin 2000) (r : Fin 16) :
    broadcastTo T2000x16 (shapeCast T2000x1 (maximumf (broadcast T2000 (Scalar.ofBits (F := Ideal) .f32 0xFF800000#32))
        (multiReduction .maximumf [1] T2000 c 0xFF800000#32 hred hφ hmax)) hsc) hb (ix2 p r)
      = Spec.peak (fun q => c (ix2 p q)) := by
  rw [col_bcast16, col_of_vec]
  show max (Ideal.ofBits .f32 0xFF800000#32) (multiReduction .maximumf [1] T2000 c 0xFF800000#32 hred hφ hmax (ix1 p)) = _
  rw [Ideal.multiReduction_maximumf_single]
  unfold Spec.peak
  congr 2
  funext q
  exact congrArg c (lift16 hred p q)

/-- The row sum of a 2000×16 block, as a column repeated along the 16 columns. -/
theorem rowsum_apply (e : FVec Ideal T2000x16 .f32) (hred : T2000x16.Reduces [1] T2000) (hsc : T2000.ShapeCasts T2000x1)
    (hb : T2000x1.Broadcasts T2000x16) (hφ : FKind.Formats .f32)
    (hadd : (0x00000000#32 : BitVec 32) = FKind.add.neutral .f32 hφ) (p : Fin 2000) (r : Fin 16) :
    broadcastTo T2000x16 (shapeCast T2000x1 (multiReduction .add [1] T2000 e 0x00000000#32 hred hφ hadd) hsc) hb (ix2 p r)
      = ∑ q : Fin 16, e (ix2 p q) := by
  rw [col_bcast16, col_of_vec, Ideal.multiReduction_add_single]
  exact Finset.sum_congr rfl fun q _ => congrArg e (lift16 hred p q)

/-- Sixteen columns laid side by side: column q of the result is the q-th of them. -/
theorem cat_apply (f : Fin 16 → (T2000x1.Idx → EReal))
    (h : Shape.Concatenates ((List.ofFn fun n : Fin 16 => (⟨T2000x1, f n⟩ : (s : Shape) × (s.Idx → EReal))).map (·.1)) T2000x16 1)
    (p : Fin 2000) (q : Fin 16) :
    concatenate T2000x16 1 (List.ofFn fun n : Fin 16 => (⟨T2000x1, f n⟩ : (s : Shape) × (s.Idx → EReal))) h (ix2 p q) = f q (ix2 p 0) :=
  concatenate_ofFn_unit_apply (1 : Fin T2000x16.rank) f h rfl rfl (ix2 p q) q rfl (ix2 p 0) (fun b hbne => by
    match b with
    | ⟨0, _⟩ => rfl
    | ⟨1, _⟩ => exact absurd rfl hbne)

/-- The softmax stretch over a 2000×16 block: each entry less its row's maximum, exponentiated,
    over the row's sum of those exponentials — at (p, r) the softmax weight of column r in row p. -/
theorem softmax_of_block (cat : FVec Ideal T2000x16 .f32) (hred : T2000x16.Reduces [1] T2000) (hsc : T2000.ShapeCasts T2000x1)
    (hb : T2000x1.Broadcasts T2000x16) (hφ : FKind.Formats .f32)
    (hmax : (0xFF800000#32 : BitVec 32) = FKind.maximumf.neutral .f32 hφ)
    (hadd : (0x00000000#32 : BitVec 32) = FKind.add.neutral .f32 hφ) (p : Fin 2000) (r : Fin 16) :
    divf (exp (subf cat (broadcastTo T2000x16 (shapeCast T2000x1 (maximumf (broadcast T2000 (Scalar.ofBits (F := Ideal) .f32 0xFF800000#32))
            (multiReduction .maximumf [1] T2000 cat 0xFF800000#32 hred hφ hmax)) hsc) hb)))
        (broadcastTo T2000x16 (shapeCast T2000x1 (multiReduction .add [1] T2000
            (exp (subf cat (broadcastTo T2000x16 (shapeCast T2000x1 (maximumf (broadcast T2000 (Scalar.ofBits (F := Ideal) .f32 0xFF800000#32))
              (multiReduction .maximumf [1] T2000 cat 0xFF800000#32 hred hφ hmax)) hsc) hb)))
            0x00000000#32 hred hφ hadd) hsc) hb) (ix2 p r)
      = Spec.weight (fun q => cat (ix2 p q)) r := by
  rw [divf_apply, rowsum_apply, exp_apply, subf_apply, rowmax_apply]
  unfold Spec.weight
  refine congrArg (fun s => Ideal.div _ s) (Finset.sum_congr rfl fun q _ => ?_)
  rw [exp_apply, subf_apply, rowmax_apply]

end Cert.KernelOps

end
-- ==== Proof.KernelPay.lean ====
/-
  The kernel body's one store, read at an entry of the 2000×32 output block: it is `Spec.out` of
  row p of the batch block, the rules' centres and widths, and the consequents' matrix and bias
  as the body finds them laid out (matrix entry (d, 32·r + o), bias entry (0, 32·r + o)).

  The body is printed in consecutive stretches, so a rule's strip may be spread over two or three
  of the named terms below; put together, each is the same strip at another row of the tables.
-/
import proofs.«111902_j33474975105109_1_alg».proof.Proof.KernelIdealFrame
import proofs.«111902_j33474975105109_1_alg».proof.Proof.KernelOps

set_option maxRecDepth 16384

noncomputable section

namespace Cert.KernelIdeal.Pay

open Cert.KernelIdeal Cert.KernelIdeal.Gen Cert.KernelIdeal.GenP Idealize.ShloMosaic Idealize.ShloMosaic.ValueIdx
open Cert.KernelOps

theorem offsets_zero : (![0, 0] : Fin 2 → Nat) = fun _ => 0 := funext fun a => by fin_cases a <;> rfl

/-- Row p of the batch block, and row r of a 16-row table. -/
abbrev rowOf (x : Vec Ideal S2000x128 .f32) (p : Fin 2000) : Fin 128 → EReal := fun d => x (ix2 p d)
abbrev ruleRow (x : Vec Ideal S16x128 .f32) (r : Fin 16) : Fin 128 → EReal := fun d => x (ix2 r d)

/-- Row r of the rules' tables can be cut out, for each of the sixteen rules. -/
theorem cuts (n : Fin 16) : S16x128.Slices ![n.val, 0] S1x128 :=
  ⟨rfl, fun a => by
    match a with
    | ⟨0, _⟩ => show n.val + 1 ≤ 16; omega
    | ⟨1, _⟩ => show 0 + 128 ≤ 128; omega⟩

/-- Rule n's strip over the squashed block: the column of its firing strengths on the 2000 rows. -/
def strip (x0 : Vec Ideal S2000x128 .f32) (x1 x2 : Vec Ideal S16x128 .f32) (n : Fin 16) : FVec Ideal S2000x1 .f32 :=
  divf (shapeCast S2000x1 (multiReduction .add [1] S2000
      (mulf (broadcast S2000x128 (Scalar.ofBits (F := Ideal) .f32 0xBF000000#32))
        (mulf (divf (subf (logistic x0) (broadcastTo S2000x128 (extractStridedSlice S1x128 ![n.val, 0] x1 (cuts n)) broadcasts_S1x128_S2000x128))
                    (broadcastTo S2000x128 (extractStridedSlice S1x128 ![n.val, 0] x2 (cuts n)) broadcasts_S1x128_S2000x128))
              (divf (subf (logistic x0) (broadcastTo S2000x128 (extractStridedSlice S1x128 ![n.val, 0] x1 (cuts n)) broadcasts_S1x128_S2000x128))
                    (broadcastTo S2000x128 (extractStridedSlice S1x128 ![n.val, 0] x2 (cuts n)) broadcasts_S1x128_S2000x128))))
      0x00000000#32 reduces_S2000x128_S2000 (.inl rfl) rfl) shapeCasts_S2000_S2000x1)
    (broadcast S2000x1 (Scalar.ofBits (F := Ideal) .f32 0x43000000#32))

/-- At (p, 0) it is rule n's firing strength on row p. -/
theorem strip_fire (x0 : Vec Ideal S2000x128 .f32) (x1 x2 : Vec Ideal S16x128 .f32) (n : Fin 16) (p : Fin 2000) :
    strip x0 x1 x2 n (ix2 p 0) = Cert.Spec.fire (rowOf x0 p) (ruleRow x1 n) (ruleRow x2 n) :=
  strip_apply n.val (logistic x0) x1 x2 (cuts n) broadcasts_S1x128_S2000x128 reduces_S2000x128_S2000 shapeCasts_S2000_S2000x1
    (.inl rfl) rfl p n rfl

/-! ## The consequents: one matrix product, the bias, the logistic -/

theorem lhs_axis0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem lhs_axis1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhs_axis0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhs_axis1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The body's matrix product into a zero accumulator, at (p, j): the sum over the 128 inner
    positions of the left block's (p, k) times the right operand's (k, j). -/
theorem matmul_at {φ₁ φ₂ : FTy} (l : FVec Ideal S2000x128 φ₁) (w : FVec Ideal S128x512 φ₂) (p : Fin 2000) (j : Fin 512) :
    matmul dot_S2000x128_S128x512_S2000x512_1_0_0_1_n_n none l w (constant S2000x512 .f32 0x00000000#32) (ix2 p j)
      = ∑ k : Fin 128, l (ix2 p k) * w (ix2 k j) := by
  simp only [matmul]
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p j) ((contrEquiv1 dot_S2000x128_S128x512_S2000x512_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x512_S2000x512_1_0_0_1_n_n.rhsIdx (ix2 p j) ((contrEquiv1 dot_S2000x128_S128x512_S2000x512_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- All 512 consequents of a row at once: column j of the logistic of (block · matrix + bias) is the
    consequent built from column j of the matrix and entry j of the bias. -/
theorem pay24_apply (x0 : Vec Ideal S2000x128 .f32) (x3 : Vec Ideal S128x512 .f32) (x4 : Vec Ideal S1x512 .f32)
    (p : Fin 2000) (j : Fin 512) :
    k0_pay24 x0 x3 x4 (ix2 p j) = Cert.Spec.conseq (rowOf x0 p) (fun d => x3 (ix2 d j)) (x4 (ix2 0 j)) := by
  unfold k0_pay24
  show Ideal.logistic
      ((matmul (F := Ideal) dot_S2000x128_S128x512_S2000x512_1_0_0_1_n_n none (truncf .bf16 x0 bitsLt_bf16_f32)
          (truncf .bf16 (shapeCast S128x512 x3 shapeCasts_S128x512_S128x512) bitsLt_bf16_f32)
          (constant S2000x512 .f32 0x00000000#32) (ix2 p j) : EReal)
        + (broadcastTo S2000x512 (shapeCast S1x512 x4 shapeCasts_S1x512_S1x512) broadcasts_S1x512_S2000x512 (ix2 p j) : EReal)) = _
  rw [matmul_at, shapeCast_self, shapeCast_self, broadcastTo_1b_ab_apply]
  rfl

/-! ## The weights: the sixteen strips side by side, then the softmax along each row -/

/-- The softmax weights as the body computes them. -/
abbrev weights (x0 : Vec Ideal S2000x128 .f32) (x1 x2 : Vec Ideal S16x128 .f32) : FVec Ideal S2000x16 .f32 :=
  k0_pay23 (k0_pay2 x0) x1 x2 (k0_pay3 x0 x1 x2) (k0_pay4 x0 x1 x2) (k0_pay5 x0 x1 x2)
      (k0_pay7 (k0_pay2 x0) x2 (k0_pay6 x1)) (k0_pay8 (k0_pay2 x0) x1 x2) (k0_pay9 (k0_pay2 x0) x1 x2)
      (k0_pay11 (k0_pay10 (k0_pay2 x0) x1 x2)) (k0_pay12 (k0_pay2 x0) x1 x2) (k0_pay13 (k0_pay2 x0) x1 x2)
      (k0_pay14 (k0_pay2 x0) x1 x2) (k0_pay17 (k0_pay15 (k0_pay2 x0) x1 x2) (k0_pay16 (F := Ideal)))
      (k0_pay18 (k0_pay2 x0) x1 x2) (k0_pay19 (k0_pay2 x0) x1 x2) (k0_pay20 (k0_pay2 x0) x1 x2)
      (k0_pay21 (k0_pay2 x0) x1) (k0_pay22 x2)

theorem weights_apply (x0 : Vec Ideal S2000x128 .f32) (x1 x2 : Vec Ideal S16x128 .f32) (p : Fin 2000) (r : Fin 16) :
    weights x0 x1 x2 (ix2 p r)
      = Cert.Spec.weight (fun q => Cert.Spec.fire (rowOf x0 p) (ruleRow x1 q) (ruleRow x2 q)) r := by
  unfold weights k0_pay23
  refine (softmax_of_block _ reduces_S2000x16_S2000 shapeCasts_S2000_S2000x1 broadcasts_S2000x1_S2000x16 (.inl rfl) rfl rfl p r).trans ?_
  refine congrArg (fun f => Cert.Spec.weight f r) (funext fun q => ?_)
  refine (cat_apply (strip x0 x1 x2) concatenates_S2000x1_S2000x1_S2000x1_S2000x1_S2000x1_S2000x1_S2000x1_S2000x1_S2000x1_S2000x1_S2000x1_S2000x1_S2000x1_S2000x1_S2000x1_S2000x1_S2000x16_d1 p q).trans ?_
  exact strip_fire x0 x1 x2 q p

/-! ## The combine: sixteen multiply-adds onto zero, then the logistic -/

/-- The last stretch of the body over ANY block of consequents cq and block of weights fw: at (p, o) the
    logistic of the sum over the rules of consequent (p, 32·r + o) times weight (p, r). -/
theorem combine_apply (cq : FVec Ideal S2000x512 .f32) (fw : FVec Ideal S2000x16 .f32) (p : Fin 2000) (o : Fin 32) :
    k0_pay1 fw cq (k0_pay27 fw cq (k0_pay25 (F := Ideal)) (extractStridedSlice S2000x32 ![0, 0] cq slices_S2000x512_o0_0_S2000x32))
        (k0_pay28 cq) (ix2 p o)
      = Ideal.logistic (∑ r : Fin 16, cq (ix2 p (Cert.Spec.col r o)) * fw (ix2 p r)) := by
  unfold k0_pay1 k0_pay27 k0_pay25 k0_pay28
  simp only [logistic_apply, addf_apply]
  rw [term_apply 0 0 cq fw slices_S2000x512_o0_0_S2000x32 slices_S2000x16_o0_0_S2000x1 broadcasts_S2000x1_S2000x32 p o 0 rfl rfl,
    term_apply 32 1 cq fw slices_S2000x512_o0_32_S2000x32 slices_S2000x16_o0_1_S2000x1 broadcasts_S2000x1_S2000x32 p o 1 rfl rfl,
    term_apply 64 2 cq fw slices_S2000x512_o0_64_S2000x32 slices_S2000x16_o0_2_S2000x1 broadcasts_S2000x1_S2000x32 p o 2 rfl rfl,
    term_apply 96 3 cq fw slices_S2000x512_o0_96_S2000x32 slices_S2000x16_o0_3_S2000x1 broadcasts_S2000x1_S2000x32 p o 3 rfl rfl,
    term_apply 128 4 cq fw slices_S2000x512_o0_128_S2000x32 slices_S2000x16_o0_4_S2000x1 broadcasts_S2000x1_S2000x32 p o 4 rfl rfl,
    term_apply 160 5 cq fw slices_S2000x512_o0_160_S2000x32 slices_S2000x16_o0_5_S2000x1 broadcasts_S2000x1_S2000x32 p o 5 rfl rfl,
    term_apply 192 6 cq fw slices_S2000x512_o0_192_S2000x32 slices_S2000x16_o0_6_S2000x1 broadcasts_S2000x1_S2000x32 p o 6 rfl rfl,
    term_apply 224 7 cq fw slices_S2000x512_o0_224_S2000x32 slices_S2000x16_o0_7_S2000x1 broadcasts_S2000x1_S2000x32 p o 7 rfl rfl,
    term_apply 256 8 cq fw slices_S2000x512_o0_256_S2000x32 slices_S2000x16_o0_8_S2000x1 broadcasts_S2000x1_S2000x32 p o 8 rfl rfl,
    term_apply 288 9 cq fw slices_S2000x512_o0_288_S2000x32 slices_S2000x16_o0_9_S2000x1 broadcasts_S2000x1_S2000x32 p o 9 rfl rfl,
    term_apply 320 10 cq fw slices_S2000x512_o0_320_S2000x32 slices_S2000x16_o0_10_S2000x1 broadcasts_S2000x1_S2000x32 p o 10 rfl rfl,
    term_apply 352 11 cq fw slices_S2000x512_o0_352_S2000x32 slices_S2000x16_o0_11_S2000x1 broadcasts_S2000x1_S2000x32 p o 11 rfl rfl,
    term_apply 384 12 cq fw slices_S2000x512_o0_384_S2000x32 slices_S2000x16_o0_12_S2000x1 broadcasts_S2000x1_S2000x32 p o 12 rfl rfl,
    term_apply 416 13 cq fw slices_S2000x512_o0_416_S2000x32 slices_S2000x16_o0_13_S2000x1 broadcasts_S2000x1_S2000x32 p o 13 rfl rfl,
    term_apply 448 14 cq fw slices_S2000x512_o0_448_S2000x32 slices_S2000x16_o0_14_S2000x1 broadcasts_S2000x1_S2000x32 p o 14 rfl rfl,
    term_apply 480 15 cq fw slices_S2000x512_o0_480_S2000x32 slices_S2000x16_o0_15_S2000x1 broadcasts_S2000x1_S2000x32 p o 15 rfl rfl]
  show Ideal.logistic (Ideal.ofBits .f32 0x00000000#32 + _ + _ + _ + _ + _ + _ + _ + _ + _ + _ + _ + _ + _ + _ + _ + _) = _
  rw [Ideal.ofBits_zero_f32]
  exact congrArg Ideal.logistic (Cert.Spec.sum_sixteen fun r => cq (ix2 p (Cert.Spec.col r o)) * fw (ix2 p r))

/-! ## The store -/

theorem out_apply (x0 : Vec Ideal S2000x128 .f32) (x1 x2 : Vec Ideal S16x128 .f32) (x3 : Vec Ideal S128x512 .f32)
    (x4 : Vec Ideal S1x512 .f32) (p : Fin 2000) (o : Fin 32) :
    out0_5 x0 x1 x2 x3 x4 (ix2 p o)
      = Cert.Spec.out (fun d => x0 (ix2 p d)) (fun r d => x1 (ix2 r d)) (fun r d => x2 (ix2 r d))
          (fun r o' d => x3 (ix2 d (Cert.Spec.col r o'))) (fun r o' => x4 (ix2 0 (Cert.Spec.col r o'))) o := by
  unfold out0_5
  rw [View.canon_unit_zero offsets_zero]
  simp only [View.ld_unit_zero (S := S2000x128) offsets_zero, View.ld_unit_zero (S := S16x128) offsets_zero,
    View.ld_unit_zero (S := S128x512) offsets_zero, View.ld_unit_zero (S := S1x512) offsets_zero]
  unfold k0_pay26
  refine (combine_apply (k0_pay24 x0 x3 x4) (weights x0 x1 x2) p o).trans ?_
  unfold Cert.Spec.out
  refine congrArg Ideal.logistic (Finset.sum_congr rfl fun r _ => ?_)
  rw [pay24_apply, weights_apply]

end Cert.KernelIdeal.Pay

end
-- ==== Proof.KernelValue.lean ====
/-
  The kernel's result array after the run, as one function of the argument arrays.

  Grid point t writes rows 2000·t … 2000·t + 1999 of the 50000×32 result; entry (p, o) of what it
  writes is `Spec.out` of row 2000·t + p of the batch.  The 25 blocks cover the array, so the array
  is `Spec.G` of the arguments.  The consequents' matrix reaches the body transposed and flattened
  (entry (d, 32·r + o) of the 128×512 operand is W[r, o, d]) and the bias flattened likewise.
-/
import proofs.«111902_j33474975105109_1_alg».proof.Proof.KernelIdealValue
import proofs.«111902_j33474975105109_1_alg».proof.Proof.KernelPay

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.ValueIdx

/-! ## Where each window's block lies -/

/-- The block indices over the grid: the batch window and the result window are at block (t, 0), every
    other window at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The operands the host prepares, read at an index -/

/-- The transposed and flattened matrix at (d, 32·r + o) is W[r, o, d]: position d·512 + 32·r + o of the
    flattening is (d, r, o) of the transpose, whose axes are the axes 2, 0, 1 of W. -/
theorem flat_matrix_apply (W : S16x32x128.Idx → EReal) (r : Fin 16) (o : Fin 32) (d : Fin 128) :
    shapeCast S128x512 (transpose S128x16x32 [2, 0, 1] W transposes_S16x32x128_S128x16x32_2_0_1)
        shapeCasts_S128x16x32_S128x512 (ix2 d (Cert.Spec.col r o)) = W (ix3 r o d) := by
  refine (shapeCast_apply _ _ (ix2 d (Cert.Spec.col r o)) (ix3 d r o) ?_).trans ?_
  · rw [Shape.rowMajor_val_three, Shape.rowMajor_val_two]
    show (d.val * 16 + r.val) * 32 + o.val = d.val * 512 + (32 * r.val + o.val)
    omega
  · exact transpose_apply [2, 0, 1] W _ (ix3 d r o) (ix3 r o d)
      (fun b => match b with | ⟨0, _⟩ => rfl | ⟨1, _⟩ => rfl | ⟨2, _⟩ => rfl)

/-- The flattened bias at (0, 32·r + o) is b[r, o]. -/
theorem flat_bias_apply (B : S16x32.Idx → EReal) (r : Fin 16) (o : Fin 32) :
    shapeCast S1x512 B shapeCasts_S16x32_S1x512 (ix2 0 (Cert.Spec.col r o)) = B (ix2 r o) := by
  refine shapeCast_apply _ _ (ix2 0 (Cert.Spec.col r o)) (ix2 r o) ?_
  rw [Shape.rowMajor_val_two, Shape.rowMajor_val_two]
  show r.val * 32 + o.val = 0 * 512 + (32 * r.val + o.val)
  omega

variable (m : (ℓ : Loc nD τ sig) → Buf (Elt Ideal) ℓ)

/-- When the region is entered the 128×512 operand is the flattening of the transpose of W. -/
theorem entry_matrix (c : Dev nD) :
    (V m c main_v1 : S128x512.Idx → EReal)
      = shapeCast S128x512 (transpose S128x16x32 [2, 0, 1] (m ((c : Thread nD τ).loc main_arg3) : S16x32x128.Idx → EReal)
          transposes_S16x32x128_S128x16x32_2_0_1) shapeCasts_S128x16x32_S128x512 := by
  dsimp only [GenP.V, Gen.hostOps0]
  after_results
  rfl

/-- When the region is entered the 1×512 operand is the flattening of the bias. -/
theorem entry_bias (c : Dev nD) :
    (V m c main_v2 : S1x512.Idx → EReal)
      = shapeCast S1x512 (m ((c : Thread nD τ).loc main_arg4) : S16x32.Idx → EReal) shapeCasts_S16x32_S1x512 := by
  dsimp only [GenP.V, Gen.hostOps0]
  after_results
  rfl

/-! ## Each input block as entries of the argument arrays -/

/-- Entry (p, d) of the batch block at point t is entry (2000·t + p, d) of the batch. -/
theorem batch_block (c : Dev nD) (t : Fin cfg0.N) (p : Fin 2000) (d : Fin 128) (k : S50000x128.Idx)
    (hk0 : (k 0).val = 2000 * t.val + p.val) (hk1 : (k 1).val = d.val) :
    (iblk m c 0 t : Vec Ideal S2000x128 .f32) (ix2 p d)
      = (m ((c : Thread nD τ).loc main_arg0) : S50000x128.Idx → EReal) k := by
  obtain ⟨e0, e1, -⟩ := block_index t
  unfold iblk
  rw [View.read_apply]
  show V m c main_arg0 (((cfg0.win 0).blk t).view.emb (ix2 p d)) = m ((c : Thread nD τ).loc main_arg0) k
  rw [V_main_arg0]
  refine congrArg (m ((c : Thread nD τ).loc main_arg0)) (funext fun a => Fin.ext ?_)
  match a with
  | ⟨0, _⟩ => show win0_0.index t (0 : Fin 2) * 2000 + 1 * p.val = (k 0).val; rw [e0, hk0]; omega
  | ⟨1, _⟩ => show win0_0.index t (1 : Fin 2) * 128 + 1 * d.val = (k 1).val; rw [e1, hk1]; omega

/-- The centres' block at any point is the whole array of centres. -/
theorem centres_block (c : Dev nD) (t : Fin cfg0.N) (r : Fin 16) (d : Fin 128) :
    (iblk m c 1 t : Vec Ideal S16x128 .f32) (ix2 r d)
      = (m ((c : Thread nD τ).loc main_arg1) : S16x128.Idx → EReal) (ix2 r d) := by
  obtain ⟨-, -, e0, e1, -⟩ := block_index t
  unfold iblk
  rw [View.read_apply]
  show V m c main_arg1 (((cfg0.win 1).blk t).view.emb (ix2 r d)) = m ((c : Thread nD τ).loc main_arg1) (ix2 r d)
  rw [V_main_arg1]
  refine congrArg (m ((c : Thread nD τ).loc main_arg1)) (funext fun a => Fin.ext ?_)
  match a with
  | ⟨0, _⟩ => show win0_1.index t (0 : Fin 2) * 16 + 1 * r.val = r.val; rw [e0]; omega
  | ⟨1, _⟩ => show win0_1.index t (1 : Fin 2) * 128 + 1 * d.val = d.val; rw [e1]; omega

/-- The widths' block at any point is the whole array of widths. -/
theorem widths_block (c : Dev nD) (t : Fin cfg0.N) (r : Fin 16) (d : Fin 128) :
    (iblk m c 2 t : Vec Ideal S16x128 .f32) (ix2 r d)
      = (m ((c : Thread nD τ).loc main_arg2) : S16x128.Idx → EReal) (ix2 r d) := by
  obtain ⟨-, -, -, -, e0, e1, -⟩ := block_index t
  unfold iblk
  rw [View.read_apply]
  show V m c main_arg2 (((cfg0.win 2).blk t).view.emb (ix2 r d)) = m ((c : Thread nD τ).loc main_arg2) (ix2 r d)
  rw [V_main_arg2]
  refine congrArg (m ((c : Thread nD τ).loc main_arg2)) (funext fun a => Fin.ext ?_)
  match a with
  | ⟨0, _⟩ => show win0_2.index t (0 : Fin 2) * 16 + 1 * r.val = r.val; rw [e0]; omega
  | ⟨1, _⟩ => show win0_2.index t (1 : Fin 2) * 128 + 1 * d.val = d.val; rw [e1]; omega

/-- The matrix operand's block at any point is the whole operand: its entry (d, 32·r + o) is W[r, o, d]. -/
theorem matrix_block (c : Dev nD) (t : Fin cfg0.N) (r : Fin 16) (o : Fin 32) (d : Fin 128) :
    (iblk m c 3 t : Vec Ideal S128x512 .f32) (ix2 d (Cert.Spec.col r o))
      = (m ((c : Thread nD τ).loc main_arg3) : S16x32x128.Idx → EReal) (ix3 r o d) := by
  obtain ⟨-, -, -, -, -, -, e0, e1, -⟩ := block_index t
  unfold iblk
  rw [View.read_apply]
  show (V m c main_v1 : S128x512.Idx → EReal) (((cfg0.win 3).blk t).view.emb (ix2 d (Cert.Spec.col r o))) = _
  have hk : ((cfg0.win 3).blk t).view.emb (ix2 d (Cert.Spec.col r o)) = ix2 d (Cert.Spec.col r o) := by
    funext a
    apply Fin.ext
    match a with
    | ⟨0, _⟩ => show win0_3.index t (0 : Fin 2) * 128 + 1 * d.val = d.val; rw [e0]; omega
    | ⟨1, _⟩ => show win0_3.index t (1 : Fin 2) * 512 + 1 * (Cert.Spec.col r o).val = (Cert.Spec.col r o).val; rw [e1]; omega
  rw [hk, entry_matrix]
  exact flat_matrix_apply _ r o d

/-- The bias operand's block at any point is the whole operand: its entry (0, 32·r + o) is b[r, o]. -/
theorem bias_block (c : Dev nD) (t : Fin cfg0.N) (r : Fin 16) (o : Fin 32) :
    (iblk m c 4 t : Vec Ideal S1x512 .f32) (ix2 0 (Cert.Spec.col r o))
      = (m ((c : Thread nD τ).loc main_arg4) : S16x32.Idx → EReal) (ix2 r o) := by
  obtain ⟨-, -, -, -, -, -, -, -, e0, e1, -⟩ := block_index t
  unfold iblk
  rw [View.read_apply]
  show (V m c main_v2 : S1x512.Idx → EReal) (((cfg0.win 4).blk t).view.emb (ix2 0 (Cert.Spec.col r o))) = _
  have hk : ((cfg0.win 4).blk t).view.emb (ix2 0 (Cert.Spec.col r o)) = ix2 0 (Cert.Spec.col r o) := by
    funext a
    apply Fin.ext
    match a with
    | ⟨0, _⟩ => show win0_4.index t (0 : Fin 2) * 1 + 1 * 0 = 0; rw [e0]
    | ⟨1, _⟩ => show win0_4.index t (1 : Fin 2) * 512 + 1 * (Cert.Spec.col r o).val = (Cert.Spec.col r o).val; rw [e1]; omega
  rw [hk, entry_bias]
  exact flat_bias_apply _ r o

/-! ## What a point writes back -/

/-- An entry of the body's result over blocks whose entries are the argument arrays' is the specification at the
    array index j under it: row j₀ of the batch is row y₀ of the block, and the output coordinate is the same. -/
theorem out_eq_spec (X : S50000x128.Idx → EReal) (C Wd : S16x128.Idx → EReal) (W : S16x32x128.Idx → EReal)
    (B : S16x32.Idx → EReal) (x0 : Vec Ideal S2000x128 .f32) (x1 x2 : Vec Ideal S16x128 .f32)
    (x3 : Vec Ideal S128x512 .f32) (x4 : Vec Ideal S1x512 .f32) (y : S2000x32.Idx) (j : S50000x32.Idx)
    (h0 : ∀ d, x0 (ix2 (y 0) d) = X (ix2 (j 0) d))
    (h1 : ∀ r d, x1 (ix2 r d) = C (ix2 r d)) (h2 : ∀ r d, x2 (ix2 r d) = Wd (ix2 r d))
    (h3 : ∀ r o d, x3 (ix2 d (Cert.Spec.col r o)) = W (ix3 r o d))
    (h4 : ∀ r o, x4 (ix2 0 (Cert.Spec.col r o)) = B (ix2 r o)) (hj : j 1 = y 1) :
    out0_5 x0 x1 x2 x3 x4 y = Cert.Spec.G X C Wd W B j := by
  refine ((congrArg (out0_5 x0 x1 x2 x3 x4) (eq_ix2 y)).trans (Pay.out_apply x0 x1 x2 x3 x4 (y 0) (y 1))).trans ?_
  unfold Cert.Spec.G
  rw [hj, funext h0, funext fun r => funext (h1 r), funext fun r => funext (h2 r),
    funext fun r => funext fun o => funext (h3 r o), funext fun r => funext (h4 r)]

/-- WHAT POINT t WRITES BACK is block t of the specification of the argument arrays. -/
theorem flushed_eq (c : Dev nD) (t : Fin cfg0.N) :
    (dats m 0 c).flushed 5 t = ((cfg0.win 5).blk t).view.read (Elt Ideal)
      (Cert.Spec.G (m ((c : Thread nD τ).loc main_arg0)) (m ((c : Thread nD τ).loc main_arg1))
        (m ((c : Thread nD τ).loc main_arg2)) (m ((c : Thread nD τ).loc main_arg3)) (m ((c : Thread nD τ).loc main_arg4))) := by
  rw [ValueP.flushed5]
  obtain ⟨-, -, -, -, -, -, -, -, -, -, e0, e1⟩ := block_index t
  funext y
  rw [View.read_apply]
  refine out_eq_spec (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) y (((cfg0.win 5).blk t).view.emb y)
    ?_ ?_ ?_ ?_ ?_ ?_
  · intro d
    refine batch_block m c t (y 0) d _ ?_ rfl
    show win0_5.index t (0 : Fin 2) * 2000 + 1 * (y 0).val = 2000 * t.val + (y 0).val
    rw [e0]; omega
  · exact fun r d => centres_block m c t r d
  · exact fun r d => widths_block m c t r d
  · exact fun r o d => matrix_block m c t r o d
  · exact fun r o => bias_block m c t r o
  · apply Fin.ext
    show win0_5.index t (1 : Fin 2) * 32 + 1 * (y 1).val = (y 1).val
    rw [e1]; omega

/-! ## The blocks cover the array -/

/-- An index of the result array is in point t's block iff each coordinate is in the block's range on its axis. -/
theorem mem_block (t : Fin cfg0.N) (i : S50000x32.Idx) :
    i ∈ ((cfg0.win 5).blk t).view.set ↔ ∀ a : Fin 2, win0_5.index t a * S2000x32.size a ≤ (i a).val
      ∧ (i a).val < win0_5.index t a * S2000x32.size a + S2000x32.size a := by
  show i ∈ ((View.whole main_v3).slice (win0_5.rect t)).set ↔ _
  rw [View.set_slice_whole, Rect.mem_set_unit]
  exact Iff.rfl

/-- Row b of the result lies in the block of point b / 2000. -/
theorem covered (i : S50000x32.Idx) :
    ∃ t : Fin cfg0.N, (cfg0.win 5).flush t = true ∧ i ∈ ((cfg0.win 5).blk t).view.set := by
  have hi0 : (i 0).val < 50000 := (i 0).isLt
  have hi1 : (i 1).val < 32 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, -, -, -, -, e0, e1⟩ := block_index t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 32 ≤ (i 1).val ∧ (i 1).val < win0_5.index t (1 : Fin 2) * 32 + 32
    rw [e1]; omega

/-- THE ARRAY after the run is the specification of the argument arrays. -/
theorem final (c : Dev nD) : (dats m 0 c).arrAt 5 cfg0.N
    = Cert.Spec.G (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5 _ (fun t _ => flushed_eq m c t) covered

/-! ## The run, read -/

/-- Every weakly fair execution of the idealized kernel ends with the result array at `Spec.G` of the
    argument arrays, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v3)
          = Cert.Spec.G (m ((c : Thread nD τ).loc main_arg0)) (m ((c : Thread nD τ).loc main_arg1))
              (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (ValueP.run_blocks m ρ)

end Cert.KernelIdeal.KValue

end
-- ==== Proof.RefValue.lean ====
/-
  The reference's result, read one operation at a time, is `Spec.G` of the argument arrays.

  The reference squashes the batch by 1/(1+e^(-x)), which is the logistic function; takes the
  absolute difference to each rule's centre before dividing by the width and squaring, and the
  square does not see that sign (`Spec.sq_div_abs`); means, softmax, consequents and the weighted
  sum are `Spec`'s, entry by entry.
-/
import proofs.«111902_j33474975105109_1_alg».proof.Proof.Gen.ReferenceIdeal.Read
import proofs.«111902_j33474975105109_1_alg».proof.Proof.Spec
import Idealize.ShloMosaic.PureOps.Reduce
import Idealize.ShloMosaic.PureOps.IdealRules

noncomputable section

namespace Cert.ReferenceIdeal.RefValue

open Cert.ReferenceIdeal Cert.ReferenceIdeal.Gen Cert.ReferenceIdeal.Read Idealize.ShloMosaic Idealize.ShloMosaic.ValueIdx

/-! ## The logistic function as the reference spells it -/

/-- The f32 word 0x3F800000 is the extended real 1. -/
theorem one_word : Ideal.ofBits .f32 0x3F800000#32 = 1 := IdealRules.sign_bit.ideal_onePat .f32

/-- 1/(1 + e^(-x)), both ones that word, is the logistic function of x. -/
theorem sigmoid_word (x : EReal) :
    Ideal.div (Ideal.ofBits .f32 0x3F800000#32) (Ideal.ofBits .f32 0x3F800000#32 + Ideal.exp (-x)) = Ideal.logistic x := by
  rw [one_word]; rfl

section Stages

variable (x0 : (⟨S50000x128, .f32⟩ : BufTy).Contents (Elt Ideal)) (x1 x2 : (⟨S16x128, .f32⟩ : BufTy).Contents (Elt Ideal))
  (x3 : (⟨S16x32x128, .f32⟩ : BufTy).Contents (Elt Ideal)) (x4 : (⟨S16x32, .f32⟩ : BufTy).Contents (Elt Ideal))

/-! ## The antecedent: squashed batch, log-memberships, firing strengths -/

/-- The squashed batch at an index is the logistic of the batch there. -/
theorem squash_at (i : S50000x128.Idx) : val_main_v5 (F := Ideal) x0 i = Ideal.logistic (x0 i) := by
  rw [val_main_v5_apply, val_main_v4_apply, val_main_cst_0_apply, val_main_v3_apply, val_main_v2_apply, val_main_cst_apply,
    val_main_v1_apply, val_main_v0_apply]
  simp only [Ideal.hostDivf_def, Ideal.ofBits_def, Ideal.addf_def, Ideal.hostUnary_exp_def, Ideal.hostNegf_def, Ideal.negf_def]
  exact sigmoid_word _

/-- Entry (b, r, d) of -1/2 · (|s - c| / w)² is the log-membership of the squashed coordinate d of row b in rule r:
    the two broadcasts read row b of the batch and row r of the centres and widths, and the square forgets the
    absolute value. -/
theorem member_at (b : Fin 50000) (r : Fin 16) (d : Fin 128) :
    val_main_v17 (F := Ideal) x0 x1 x2 (ix3 b r d)
      = Spec.member (Ideal.logistic (x0 (ix2 b d))) (x1 (ix2 r d)) (x2 (ix2 r d)) := by
  rw [val_main_v17_apply, val_main_v16_apply, val_main_cst_1_apply, val_main_v15_apply, val_main_v14_apply, val_main_v11_apply,
    val_main_v10_apply, val_main_v8_apply, val_main_v6_apply, squash_at, val_main_v9_apply, val_main_v7_apply, val_main_v13_apply,
    val_main_v12_apply]
  have e0 : idx_main_v6 (idx_main_v8 (ix3 b r d)) = ix2 b d :=
    funext fun a => Fin.ext (by match a with | ⟨0, _⟩ => rfl | ⟨1, _⟩ => rfl)
  have e1 : idx_main_v7 (idx_main_v9 (ix3 b r d)) = ix2 r d :=
    funext fun a => Fin.ext (by match a with | ⟨0, _⟩ => rfl | ⟨1, _⟩ => rfl)
  have e2 : idx_main_v12 (idx_main_v13 (ix3 b r d)) = ix2 r d :=
    funext fun a => Fin.ext (by match a with | ⟨0, _⟩ => rfl | ⟨1, _⟩ => rfl)
  rw [e0, e1, e2]
  simp only [Ideal.mulf_def, Ideal.ofBits_def, Ideal.hostDivf_def, Ideal.hostAbsf_def, Ideal.absf_def, Ideal.subf_def]
  unfold Spec.member
  rw [Spec.sq_div_abs]

/-- Entry (b, r) of the mean over the 128 coordinates is rule r's firing strength on row b: the sum starts from the
    zero word, and the divisor is the word of 128. -/
theorem fire_at (b : Fin 50000) (r : Fin 16) :
    val_main_v20 (F := Ideal) x0 x1 x2 (ix2 b r)
      = Spec.fire (fun d => x0 (ix2 b d)) (fun d => x1 (ix2 r d)) (fun d => x2 (ix2 r d)) := by
  rw [val_main_v20_apply, val_main_v19_apply, val_main_cst_3_apply, val_main_v18_apply, val_main_cst_2_apply]
  simp only [Ideal.hostDivf_def, Ideal.ofBits_def, Ideal.ofBits_zero_f32, zero_add]
  unfold Spec.fire
  refine congrArg (Ideal.div · Spec.n128) (Finset.sum_congr rfl fun d _ => ?_)
  have e : idx_main_v18 (ix2 b r) d = ix3 b r d :=
    funext fun a => Fin.ext (by match a with | ⟨0, _⟩ => rfl | ⟨1, _⟩ => rfl | ⟨2, _⟩ => rfl)
  rw [e]
  exact member_at x0 x1 x2 b r d

/-! ## The softmax over the sixteen rules -/

/-- The row maximum: the reduction with maximum over the rules' axis is the fold of max from -∞ over the sixteen
    strengths of the row, and the reference takes the maximum with -∞ once more. -/
theorem peak_at (b : Fin 50000) :
    val_main_v23 (F := Ideal) x0 x1 x2 (ix1 b)
      = Spec.peak (fun q => Spec.fire (fun d => x0 (ix2 b d)) (fun d => x1 (ix2 q d)) (fun d => x2 (ix2 q d))) := by
  rw [val_main_v23_apply, val_main_v22_apply, val_main_cst_5_apply]
  unfold val_main_v21 Spec.peak
  rw [Host.reduce_eq_fold_single FloatOps.maximumf _ _ reducesTo_S50000x16_S50000_d1 (by decide) h_S_ (ix1 b),
    val_main_cst_4_apply]
  refine congrArg (max Spec.negInf) (Finset.fold_congr fun q _ => ?_)
  rw [← fire_at x0 x1 x2 b q]
  exact congrArg (val_main_v20 (F := Ideal) x0 x1 x2)
    (funext fun a => Fin.ext (by match a with | ⟨0, _⟩ => rfl | ⟨1, _⟩ => rfl))

/-- Entry (b, r) of the exponentials: e to the strength less the row's maximum. -/
theorem expo_at (b : Fin 50000) (r : Fin 16) :
    val_main_v27 (F := Ideal) x0 x1 x2 (ix2 b r)
      = Ideal.exp (Spec.fire (fun d => x0 (ix2 b d)) (fun d => x1 (ix2 r d)) (fun d => x2 (ix2 r d))
          - Spec.peak (fun q => Spec.fire (fun d => x0 (ix2 b d)) (fun d => x1 (ix2 q d)) (fun d => x2 (ix2 q d)))) := by
  rw [val_main_v27_apply, val_main_v26_apply, val_main_v25_apply, val_main_v24_apply, fire_at]
  have e : idx_main_v24 (idx_main_v25 (ix2 b r)) = ix1 b :=
    funext fun a => Fin.ext (by match a with | ⟨0, _⟩ => rfl)
  rw [e, peak_at, Ideal.hostUnary_exp_def, Ideal.subf_def]

/-- Entry (b, r) of the softmax is rule r's weight among the row's sixteen strengths. -/
theorem weight_at (b : Fin 50000) (r : Fin 16) :
    val_main_v31 (F := Ideal) x0 x1 x2 (ix2 b r)
      = Spec.weight (fun q => Spec.fire (fun d => x0 (ix2 b d)) (fun d => x1 (ix2 q d)) (fun d => x2 (ix2 q d))) r := by
  rw [val_main_v31_apply, expo_at, val_main_v30_apply, val_main_v29_apply, val_main_v28_apply, val_main_cst_6_apply]
  simp only [Ideal.hostDivf_def, Ideal.ofBits_def, Ideal.ofBits_zero_f32, zero_add]
  unfold Spec.weight
  refine congrArg (Ideal.div _) (Finset.sum_congr rfl fun q _ => ?_)
  have e : idx_main_v28 (idx_main_v29 (idx_main_v30 (ix2 b r))) q = ix2 b q :=
    funext fun a => Fin.ext (by match a with | ⟨0, _⟩ => rfl | ⟨1, _⟩ => rfl)
  rw [e]
  exact expo_at x0 x1 x2 b q

/-! ## The consequents -/

/-- Entry (b, r, o) of the consequents: the contraction reads row b of the batch against row (r, o) of the matrices,
    the bias is broadcast from (r, o), and 1/(1 + e^(-·)) is the logistic. -/
theorem conseq_at (b : Fin 50000) (r : Fin 16) (o : Fin 32) :
    val_main_v41 (F := Ideal) x0 x3 x4 (ix3 b r o)
      = Spec.conseq (fun d => x0 (ix2 b d)) (fun d => x3 (ix3 r o d)) (x4 (ix2 r o)) := by
  rw [val_main_v41_apply, val_main_v40_apply, val_main_cst_8_apply, val_main_v39_apply, val_main_v38_apply, val_main_cst_7_apply,
    val_main_v37_apply, val_main_v36_apply, val_main_v35_apply, val_main_v32_apply, val_main_v34_apply, val_main_v33_apply]
  have e : idx_main_v33 (idx_main_v34 (ix3 b r o)) = ix2 r o :=
    funext fun a => Fin.ext (by match a with | ⟨0, _⟩ => rfl | ⟨1, _⟩ => rfl)
  have el : ∀ d : Fin 128, lidx_main_v32 (ix3 b r o) d = ix2 b d := fun d =>
    funext fun a => Fin.ext (by match a with | ⟨0, _⟩ => rfl | ⟨1, _⟩ => rfl)
  have er : ∀ d : Fin 128, ridx_main_v32 (ix3 b r o) d = ix3 r o d := fun d =>
    funext fun a => Fin.ext (by match a with | ⟨0, _⟩ => rfl | ⟨1, _⟩ => rfl | ⟨2, _⟩ => rfl)
  simp only [e, el, er, Ideal.hostDivf_def, Ideal.ofBits_def, Ideal.addf_def, Ideal.hostUnary_exp_def, Ideal.hostNegf_def,
    Ideal.negf_def]
  exact sigmoid_word _

/-! ## The result -/

/-- Entry (b, o) of the result: the logistic of the sum over the rules of consequent times weight. -/
theorem out_at (b : Fin 50000) (o : Fin 32) :
    val_main_v51 (F := Ideal) x0 x1 x2 x3 x4 (ix2 b o)
      = Spec.out (fun d => x0 (ix2 b d)) (fun r d => x1 (ix2 r d)) (fun r d => x2 (ix2 r d))
          (fun r o d => x3 (ix3 r o d)) (fun r o => x4 (ix2 r o)) o := by
  rw [val_main_v51_apply, val_main_v50_apply, val_main_cst_11_apply, val_main_v49_apply, val_main_v48_apply, val_main_cst_10_apply,
    val_main_v47_apply, val_main_v46_apply, val_main_v45_apply, val_main_cst_9_apply]
  simp only [Ideal.hostDivf_def, Ideal.ofBits_def, Ideal.addf_def, Ideal.hostUnary_exp_def, Ideal.hostNegf_def, Ideal.negf_def,
    Ideal.ofBits_zero_f32, zero_add]
  rw [sigmoid_word]
  unfold Spec.out
  refine congrArg Ideal.logistic (Finset.sum_congr rfl fun r _ => ?_)
  have e1 : idx_main_v45 (ix2 b o) r = ix3 b r o :=
    funext fun a => Fin.ext (by match a with | ⟨0, _⟩ => rfl | ⟨1, _⟩ => rfl | ⟨2, _⟩ => rfl)
  have e2 : idx_main_v42 (idx_main_v43 (ix3 b r o)) = ix2 b r :=
    funext fun a => Fin.ext (by match a with | ⟨0, _⟩ => rfl | ⟨1, _⟩ => rfl)
  rw [e1, val_main_v44_apply, val_main_v43_apply, val_main_v42_apply, e2, conseq_at, weight_at, Ideal.mulf_def]

end Stages

theorem result_eq (x0 : (⟨S50000x128, .f32⟩ : BufTy).Contents (Elt Ideal)) (x1 x2 : (⟨S16x128, .f32⟩ : BufTy).Contents (Elt Ideal))
    (x3 : (⟨S16x32x128, .f32⟩ : BufTy).Contents (Elt Ideal)) (x4 : (⟨S16x32, .f32⟩ : BufTy).Contents (Elt Ideal)) :
    val_main_v51 (F := Ideal) x0 x1 x2 x3 x4 = Cert.Spec.G x0 x1 x2 x3 x4 := by
  funext j
  obtain ⟨b, o, rfl⟩ : ∃ b o, j = ix2 b o := ⟨j 0, j 1, eq_ix2 j⟩
  exact out_at x0 x1 x2 x3 x4 b o

end Cert.ReferenceIdeal.RefValue

end
-- ==== Proof.lean ====
/-
  A kernel for a fuzzy-rule layer against its jnp reference, over the extended reals.

  For each row x of the batch: squash it by the logistic function, take for each of 16 rules the mean
  over the 128 coordinates of -1/2·((s - c)/w)², turn the sixteen strengths into softmax weights, and
  return the logistic of the weighted sum of the rules' consequents logistic(⟨x, W_{r,o}⟩ + b_{r,o}).
  The kernel does this for 2000 rows at a time, rule by rule, with one 2000×128 by 128×512 matrix
  product for all consequents; the reference does it with whole-array operations and takes |s - c|
  before dividing.  Both end at `Spec.G` of the arguments: the kernel by reading its one store at an
  entry and tiling the 25 blocks, the reference operation by operation; the only law between them is
  that the square of a quotient does not see the numerator's sign.  Nothing needs the inputs finite.
-/
import proofs.«111902_j33474975105109_1_alg».proof.Defs
import proofs.«111902_j33474975105109_1_alg».proof.Proof.Gen.Kernel
import proofs.«111902_j33474975105109_1_alg».proof.Proof.Gen.Kernel.Skeleton
import proofs.«111902_j33474975105109_1_alg».proof.Proof.Gen.Kernel.Launch
import proofs.«111902_j33474975105109_1_alg».proof.Proof.Gen.Kernel.Points
import proofs.«111902_j33474975105109_1_alg».proof.Proof.KernelFrame
import proofs.«111902_j33474975105109_1_alg».proof.Proof.Gen.KernelIdeal
import proofs.«111902_j33474975105109_1_alg».proof.Proof.Gen.KernelIdeal.Skeleton
import proofs.«111902_j33474975105109_1_alg».proof.Proof.Gen.KernelIdeal.Launch
import proofs.«111902_j33474975105109_1_alg».proof.Proof.Gen.KernelIdeal.Points
import proofs.«111902_j33474975105109_1_alg».proof.Proof.KernelIdealFrame
import proofs.«111902_j33474975105109_1_alg».proof.Proof.Gen.ReferenceIdeal
import proofs.«111902_j33474975105109_1_alg».proof.Proof.Gen.Pre_finite_inputs
import proofs.«111902_j33474975105109_1_alg».proof.Proof.KernelValue
import proofs.«111902_j33474975105109_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.GenP.frame m ρ

/-- So does its reading over the extended reals. -/
theorem frame_kernelIdeal : Cert.frame_KernelIdeal := fun m ρ _ => Cert.KernelIdeal.GenP.frame m ρ

/-- The reference is a sequence of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at `Spec.G` of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
